-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096x4096 32) (main_v13 : IVec S_ 1) (main_v15 : IVec S4096x4096 1) (main_c_5 : IVec S_ 1) : IVec S_ 1 :=
  let main_v16 : IVec S_ 1 := (fun x v => Host.reduce IntOp.andi x v reducesTo_S4096x4096_S_d0_1 h_S_) main_v15 main_c_5
  let main_v17 : IVec S_ 1 := andi main_v13 main_v16
  let main_c_6 : IVec S_ 32 := constantI S_ 32 4096#32
  let main_v18 : IVec S4096x4096 32 := broadcastInDim S4096x4096 ![] bcast_S_S4096x4096 main_c_6
  let main_v19 : IVec S4096x4096 1 := cmpi .slt main_arg2 main_v18
  let main_c_7 : IVec S_ 1 := constantI S_ 1 1#1
  let main_v20 : IVec S_ 1 := (fun x v => Host.reduce IntOp.andi x v reducesTo_S4096x4096_S_d0_1 h_S_) main_v19 main_c_7
  let main_v21 : IVec S_ 1 := andi main_v17 main_v20
  main_v21

def fn {F : FTy → Type} [FloatOps F] (main_arg0 : FVec F S4096x4096 .f32) (main_arg1 : FVec F S4096 .f32) (main_arg2 : IVec S4096x4096 32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 4294963200#32
  let main_v14 : IVec S4096x4096 32 := broadcastInDim S4096x4096 ![] bcast_S_S4096x4096 main_c_4
  let main_v15 : IVec S4096x4096 1 := cmpi .sge main_arg2 main_v14
  let main_c_5 : IVec S_ 1 := constantI S_ 1 1#1
  fn_part1 (F := F) main_arg2 main_v13 main_v15 main_c_5
-- ==== Kernel.lean ====
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S4096x4096, .bf16⟩
  | .hbm, ⟨28, _⟩ => ⟨S1x4096, .f32⟩
  | .hbm, ⟨29, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S4096_S4096x4096x1_S4096x4096_n_0_n_n_0_2_1_wf : GatherDims.WF S4096 S4096x4096x1 S4096x4096 [] [0] [] [0] [] 2 ![1]
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096_S4096x4096x1_S4096x4096_n_0_n_n_0_2_1_wf : GatherDims.WF S4096 S4096x4096x1 S4096x4096 [] [0] [] [0] [] 2 ![1]
  dot_S4096x4096_S4096x4096_S4096x4096_1_1_0_0_n_n_wf : DotDims.WF S4096x4096 S4096x4096 S4096x4096 [1] [1] [0] [0] [] []

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one run of the matmul body leaves behind, as values of its loads.

  The body keeps a running [1024,1024] block in a scratch buffer that survives from one grid point to the next.
  At every point it adds to that block the product of the point's x-block [1024,512] with the transposed
  w-block [1024,512]; at the first point of a run of eight (k = 0) it first overwrites the scratch with zeros, and
  at the last point (k = 7) it also stores the scratch plus the bias row, broadcast down the rows, into the output
  block. The three control cases therefore leave
    k = 0       : scratch = (0 + x·wᵀ)
    0 < k < 7   : scratch = (old + x·wᵀ)
    k = 7       : scratch = (old + x·wᵀ), output = scratch + bias
  each read here off the stores the run recorded: a store that covers the whole buffer decides its contents, and a
  load after such a store reads the stored value back.
-/
import proofs.«401024_j88046829568546_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a run of eight: the zero block is stored, read back, and the product added to it. -/
theorem scratch_first (c : Dev nD) (i : grid0.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .bf16) (x1 : Vec F S1024x512 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz]

/-- A middle point: the product is added to what the point before left. -/
theorem scratch_middle (c : Dev nD) (i : grid0.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .bf16) (x1 : Vec F S1024x512 .bf16) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h3.read_unread, h4.read_unread, h7.read_unread, View.ld_unit_zero (S := S1024x512) hz,
    View.ld_unit_zero (S := S1024x1024) hz]

/-- The last point of a run: the scratch is updated as at a middle point, -/
theorem scratch_last (c : Dev nD) (i : grid0.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .bf16) (x1 : Vec F S1024x512 .bf16) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x512) hz,
    View.ld_unit_zero (S := S1024x1024) hz]

/-- and the output block receives the updated scratch plus the bias row. -/
theorem out_last (c : Dev nD) (i : grid0.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .bf16) (x1 : Vec F S1024x512 .bf16) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread,
    View.readCov_unit_zero (S := S1024x1024) _ hz, View.ld_unit_zero (S := S1024x512) hz,
    View.ld_unit_zero (S := S1024x1024) hz, View.ld_unit_zero (S := S1x1024) hz]

end Cert.KernelIdeal.Pieces

end
-- ==== Proof.Payload.lean ====
/-
  The body's three stored values, read at one entry over the extended reals.

  With exact arithmetic a change of float format is the identity and the matrix unit's product into a zero
  accumulator is the plain sum of products, so at entry (p, q) of the [1024,1024] block
    the zero block              is 0,
    the update  old + x·wᵀ      is old(p,q) + ∑ over the 512 columns kk of x(p,kk) · w(q,kk)
                                (the transpose reads w at (q,kk) where the product asks for (kk,q)),
    the output  acc + bias      is acc(p,q) + bias(0,q)   (the [1,1024] row broadcast down the rows).
-/
import proofs.«401024_j88046829568546_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-! ### Where the product reads its two operands -/

theorem lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_col (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_row (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The transposed w-block at (kk, q) is the w-block at (q, kk). -/
theorem transpose_at {α : Type} (w : S1024x512.Idx → α) (kk : Fin 512) (q : Fin 1024) :
    transpose S512x1024 [1, 0] w transposes_S1024x512_p1_0_S512x1024 (ix2 kk q) = w (ix2 q kk) :=
  transpose_apply [1, 0] w transposes_S1024x512_p1_0_S512x1024 (ix2 kk q) (ix2 q kk) (fun b => by
    match b with
    | ⟨0, _⟩ => rfl
    | ⟨1, _⟩ => rfl)

/-- The product into the zero accumulator, at (p, q): the sum over the block's 512 columns. -/
theorem product_at (x w : FVec Ideal S1024x512 .bf16) (p q : Fin 1024) :
    matmul (F := Ideal) (φ₁ := .bf16) (φ₂ := .bf16) dot_S1024x512_S512x1024_S1024x1024_1_0_0_1_n_n none x
        (transpose S512x1024 [1, 0] w transposes_S1024x512_p1_0_S512x1024) (constant S1024x1024 .f32 0x00000000#32) (ix2 p q)
      = ∑ kk : Fin 512, x (ix2 p kk) * w (ix2 q kk) := by
  refine (Ideal.matmul_constant_zero_apply dot_S1024x512_S512x1024_S1024x1024_1_0_0_1_n_n none x _ (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_row _ _).trans hk
    | ⟨1, _⟩ => exact rhs_col _ _)
  rw [el, er, transpose_at]

/-! ### The three stored values at an entry -/

theorem zero_at (j : S1024x1024.Idx) : k0_pay1 (F := Ideal) j = 0 := by
  unfold k0_pay1
  simp only [shapeCast_self]
  exact Ideal.ofBits_zero_f32

theorem update_at (x w : Vec Ideal S1024x512 .bf16) (old : Vec Ideal S1024x1024 .f32) (p q : Fin 1024) :
    k0_pay2 (F := Ideal) x w old (ix2 p q) = old (ix2 p q) + ∑ kk : Fin 512, x (ix2 p kk) * w (ix2 q kk) := by
  unfold k0_pay2
  simp only [shapeCast_self]
  exact congrArg (old (ix2 p q) + ·) (product_at x w p q)

theorem output_at (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  refine congrArg (acc (ix2 p q) + ·) (broadcastTo_apply b broadcasts_S1x1024_S1024x1024 (ix2 p q) (ix2 (0 : Fin 1) q) (fun a => ?_))
  match a with
  | ⟨0, _⟩ => show (0 : ℕ) = if (1 : ℕ) = 1 then 0 else _; rw [if_pos rfl]
  | ⟨1, _⟩ => show q.val = if (1024 : ℕ) = 1 then 0 else _; rw [if_neg (by decide)]; rfl

end Cert.KernelIdeal.Payload

end
-- ==== Proof.BlockSum.lean ====
/-
  An inner product over 4096 columns taken in eight blocks of 512.

  For two [4096,4096] arrays X and W of extended reals, `partialDot X W r s n` is the sum over the first n columns k
  of X(r,k) · W(s,k). Addition of extended reals is commutative and associative, so a sum may be cut anywhere:
  the first 512·(n+1) columns are the first 512·n columns plus the block of columns 512·n … 512·n+511; nothing
  is summed over no columns; and all 4096 columns give the full inner product of row r of X with row s of W.
  (Arrays are read at natural-number coordinates, zero outside the array, so that the block arithmetic is plain
  arithmetic on naturals.)
-/
import Idealize.ShloMosaic.Lib.ValueIdx
import Idealize.ShloMosaic.PureOps.Ideal.Laws

noncomputable section

open Idealize.ShloMosaic Idealize.ShloMosaic.ValueIdx

namespace Cert.BlockSum

abbrev Sq : Shape := ⟨2, ![4096, 4096]⟩

/-- Entry (r, k) of a [4096,4096] array by natural coordinates; zero outside. -/
def at2 (A : Sq.Idx → EReal) (r k : ℕ) : EReal :=
  if h : r < 4096 ∧ k < 4096 then A (ix2 ⟨r, h.1⟩ ⟨k, h.2⟩) else 0

theorem at2_of_lt (A : Sq.Idx → EReal) (r k : ℕ) (hr : r < 4096) (hk : k < 4096) :
    at2 A r k = A (ix2 ⟨r, hr⟩ ⟨k, hk⟩) := dif_pos ⟨hr, hk⟩

/-- The inner product of row r of X with row s of W over the first n columns. -/
def partialDot (X W : Sq.Idx → EReal) (r s n : ℕ) : EReal :=
  ∑ k ∈ Finset.range n, at2 X r k * at2 W s k

theorem partialDot_zero (X W : Sq.Idx → EReal) (r s : ℕ) : partialDot X W r s 0 = 0 :=
  Finset.sum_range_zero _

/-- One more block of 512 columns. -/
theorem partialDot_block (X W : Sq.Idx → EReal) (r s n : ℕ) :
    partialDot X W r s (512 * (n + 1))
      = partialDot X W r s (512 * n) + ∑ j : Fin 512, at2 X r (512 * n + j.val) * at2 W s (512 * n + j.val) := by
  unfold partialDot
  rw [show 512 * (n + 1) = 512 * n + 512 from by ring, Finset.sum_range_add]
  exact congrArg (_ + ·) (Finset.sum_range fun x => at2 X r (512 * n + x) * at2 W s (512 * n + x))

/-- All 4096 columns: the full inner product. -/
theorem partialDot_full (X W : Sq.Idx → EReal) (r s : Fin 4096) :
    partialDot X W r.val s.val 4096 = ∑ k : Fin 4096, X (ix2 r k) * W (ix2 s k) := by
  unfold partialDot
  rw [Finset.sum_range]
  refine Finset.sum_congr rfl fun k _ => ?_
  rw [at2_of_lt X r.val k.val r.isLt k.isLt, at2_of_lt W s.val k.val s.isLt k.isLt]

end Cert.BlockSum

end
-- ==== Proof.Running.lean ====
/-
  What the scratch block holds after each grid point, and what the output block receives.

  The grid is 4 × 4 × 8: point t is (i, j, k) with i = t / 32, j = t / 8 mod 4, k = t mod 8. At point t the x-window
  is rows 1024·i … of x and columns 512·k …; the w-window is rows 1024·j … of the weights and the same columns;
  the bias window is columns 1024·j … of the bias row; the output window is block (i, j) of the result.
  By induction on t, after point t the scratch holds at (p, q) the inner product of row 1024·i + p of x with row
  1024·j + q of the weights over the first 512·(k+1) columns: at k = 0 the block starts from zero, otherwise one
  more block of 512 columns is added to what the point before left. At k = 7 all 4096 columns are in, and the
  output block receives that inner product plus the bias entry of its column.
-/
import proofs.«401024_j88046829568546_1_alg».proof.Proof.Gen.KernelIdeal.Value
import proofs.«401024_j88046829568546_1_alg».proof.Proof.Pieces
import proofs.«401024_j88046829568546_1_alg».proof.Proof.Payload
import proofs.«401024_j88046829568546_1_alg».proof.Proof.BlockSum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.BlockSum

variable (m : (ℓ : Loc nD τ sig) → Buf (Elt Ideal) ℓ) (ρ : Dev nD → PrngReg)

/-- The three arrays the region reads, as it finds them. -/
def xarr (c : Dev nD) : FVec Ideal S4096x4096 .bf16 := V m c main_v1
def warr (c : Dev nD) : FVec Ideal S4096x4096 .bf16 := V m c main_v2
def brow (c : Dev nD) : FVec Ideal S1x4096 .f32 := V m c main_v3
/-- Their blocks at a point. -/
abbrev xblk (c : Dev nD) (t : Fin cfg0.N) : FVec Ideal S1024x512 .bf16 := iblk m c 0 t
abbrev wblk (c : Dev nD) (t : Fin cfg0.N) : FVec Ideal S1024x512 .bf16 := iblk m c 1 t
abbrev bblk (c : Dev nD) (t : Fin cfg0.N) : FVec Ideal S1x1024 .f32 := iblk m c 2 t

/-! ### Which block each window shows at point t -/

theorem idx_x : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx_w : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idx_b : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
theorem idx_o : ∀ t : Fin cfg0.N, win0_3.index t (0 : Fin 2) = t.val / 32 ∧ win0_3.index t (1 : Fin 2) = t.val / 8 % 4 :=
  (by decide +kernel : ∀ t : Fin grid0.N, win0_3.index t (0 : Fin 2) = t.val / 32 ∧ win0_3.index t (1 : Fin 2) = t.val / 8 % 4)

theorem lt_N (t : Fin cfg0.N) : t.val < 128 := lt_of_lt_of_eq t.isLt (show cfg0.N = 128 from N_0)

/-- Window 0 read at (p, kk) of its block at point t, for any contents of its array. -/
theorem read_x (A : FVec Ideal S4096x4096 .bf16) (t : Fin cfg0.N) (p : Fin 1024) (kk : Fin 512)
    (hb1 : 1024 * (t.val / 32) + p.val < 4096) (hb2 : 512 * (t.val % 8) + kk.val < 4096) :
    ((cfg0.win 0).blk t).view.read (Elt Ideal) A (ix2 p kk) = A (ix2 ⟨1024 * (t.val / 32) + p.val, hb1⟩ ⟨512 * (t.val % 8) + kk.val, hb2⟩) := by
  rw [View.read_apply]
  show A _ = A _
  refine congrArg A (funext fun a => Fin.ext ?_)
  match a with
  | ⟨0, _⟩ => show win0_0.index t 0 * 1024 + 1 * p.val = 1024 * (t.val / 32) + p.val; rw [(idx_x t).1]; omega
  | ⟨1, _⟩ => show win0_0.index t 1 * 512 + 1 * kk.val = 512 * (t.val % 8) + kk.val; rw [(idx_x t).2]; omega

/-- Window 1 read at (q, kk) of its block at point t, for any contents of its array. -/
theorem read_w (A : FVec Ideal S4096x4096 .bf16) (t : Fin cfg0.N) (q : Fin 1024) (kk : Fin 512)
    (hb1 : 1024 * (t.val / 8 % 4) + q.val < 4096) (hb2 : 512 * (t.val % 8) + kk.val < 4096) :
    ((cfg0.win 1).blk t).view.read (Elt Ideal) A (ix2 q kk) = A (ix2 ⟨1024 * (t.val / 8 % 4) + q.val, hb1⟩ ⟨512 * (t.val % 8) + kk.val, hb2⟩) := by
  rw [View.read_apply]
  show A _ = A _
  refine congrArg A (funext fun a => Fin.ext ?_)
  match a with
  | ⟨0, _⟩ => show win0_1.index t 0 * 1024 + 1 * q.val = 1024 * (t.val / 8 % 4) + q.val; rw [(idx_w t).1]; omega
  | ⟨1, _⟩ => show win0_1.index t 1 * 512 + 1 * kk.val = 512 * (t.val % 8) + kk.val; rw [(idx_w t).2]; omega

/-- Window 2 read at (0, q) of its block at point t, for any contents of its array. -/
theorem read_b (A : FVec Ideal S1x4096 .f32) (t : Fin cfg0.N) (q : Fin 1024) (hb : 1024 * (t.val / 8 % 4) + q.val < 4096) :
    ((cfg0.win 2).blk t).view.read (Elt Ideal) A (ix2 (0 : Fin 1) q) = A (ix2 (0 : Fin 1) ⟨1024 * (t.val / 8 % 4) + q.val, hb⟩) := by
  rw [View.read_apply]
  show A _ = A _
  refine congrArg A (funext fun a => Fin.ext ?_)
  match a with
  | ⟨0, _⟩ => show win0_2.index t 0 * 1 + 1 * 0 = 0; rw [(idx_b t).1]
  | ⟨1, _⟩ => show win0_2.index t 1 * 1024 + 1 * q.val = 1024 * (t.val / 8 % 4) + q.val; rw [(idx_b t).2]; omega

/-- The x-block at (p, kk) is x at (1024·i + p, 512·k + kk). -/
theorem xblk_at (c : Dev nD) (t : Fin cfg0.N) (p : Fin 1024) (kk : Fin 512) :
    xblk m c t (ix2 p kk) = at2 (xarr m c) (1024 * (t.val / 32) + p.val) (512 * (t.val % 8) + kk.val) := by
  have hN := lt_N t
  have hp := p.isLt
  have hk := kk.isLt
  have hb1 : 1024 * (t.val / 32) + p.val < 4096 := by omega
  have hb2 : 512 * (t.val % 8) + kk.val < 4096 := by omega
  refine Eq.trans ?_ (at2_of_lt (xarr m c) _ _ hb1 hb2).symm
  exact read_x (xarr m c) t p kk hb1 hb2

/-- The w-block at (q, kk) is the weights at (1024·j + q, 512·k + kk). -/
theorem wblk_at (c : Dev nD) (t : Fin cfg0.N) (q : Fin 1024) (kk : Fin 512) :
    wblk m c t (ix2 q kk) = at2 (warr m c) (1024 * (t.val / 8 % 4) + q.val) (512 * (t.val % 8) + kk.val) := by
  have hN := lt_N t
  have hq := q.isLt
  have hk := kk.isLt
  have hb1 : 1024 * (t.val / 8 % 4) + q.val < 4096 := by omega
  have hb2 : 512 * (t.val % 8) + kk.val < 4096 := by omega
  refine Eq.trans ?_ (at2_of_lt (warr m c) _ _ hb1 hb2).symm
  exact read_w (warr m c) t q kk hb1 hb2

/-- The bias block at (0, q) is the bias row at (0, 1024·j + q). -/
theorem bblk_at (c : Dev nD) (t : Fin cfg0.N) (q : Fin 1024) (hb : 1024 * (t.val / 8 % 4) + q.val < 4096) :
    bblk m c t (ix2 (0 : Fin 1) q) = brow m c (ix2 (0 : Fin 1) ⟨1024 * (t.val / 8 % 4) + q.val, hb⟩) :=
  read_b (brow m c) t q hb

/-! ### The running inner product -/

/-- After point n: rows of block (i, j), the first 512·(k+1) columns. -/
def running (c : Dev nD) (n : ℕ) : FVec Ideal S1024x1024 .f32 := fun y =>
  partialDot (xarr m c) (warr m c) (1024 * (n / 32) + (y 0).val) (1024 * (n / 8 % 4) + (y 1).val) (512 * (n % 8 + 1))

theorem running_at (c : Dev nD) (n : ℕ) (p q : Fin 1024) :
    running m c n (ix2 p q)
      = partialDot (xarr m c) (warr m c) (1024 * (n / 32) + p.val) (1024 * (n / 8 % 4) + q.val) (512 * (n % 8 + 1)) := rfl

/-- The first point of a run of eight starts the sum from zero. -/
theorem update_first (c : Dev nD) (t : Fin cfg0.N) (h0 : t.val % 8 = 0) :
    k0_pay2 (F := Ideal) (xblk m c t) (wblk m c t) (k0_pay1 (F := Ideal)) = running m c t.val := by
  funext y
  obtain ⟨p, q, rfl⟩ : ∃ (p q : Fin 1024), y = ix2 p q := ⟨y 0, y 1, eq_ix2 y⟩
  refine (Payload.update_at (xblk m c t) (wblk m c t) (k0_pay1 (F := Ideal)) p q).trans ?_
  rw [Payload.zero_at, zero_add, running_at, partialDot_block, h0, Nat.mul_zero, partialDot_zero, zero_add]
  refine Finset.sum_congr rfl fun kk _ => ?_
  rw [xblk_at, wblk_at, h0]

/-- Every later point adds one block of 512 columns to what the point before left. -/
theorem update_next (c : Dev nD) (t : Fin cfg0.N) (h0 : ¬t.val % 8 = 0) (old : FVec Ideal S1024x1024 .f32)
    (hold : old = running m c (t.val - 1)) :
    k0_pay2 (F := Ideal) (xblk m c t) (wblk m c t) old = running m c t.val := by
  subst hold
  funext y
  obtain ⟨p, q, rfl⟩ : ∃ (p q : Fin 1024), y = ix2 p q := ⟨y 0, y 1, eq_ix2 y⟩
  refine (Payload.update_at (xblk m c t) (wblk m c t) (running m c (t.val - 1)) p q).trans ?_
  rw [running_at, running_at, show (t.val - 1) / 32 = t.val / 32 from by omega,
    show (t.val - 1) / 8 % 4 = t.val / 8 % 4 from by omega, show (t.val - 1) % 8 + 1 = t.val % 8 from by omega,
    partialDot_block]
  refine congrArg (_ + ·) (Finset.sum_congr rfl fun kk _ => ?_)
  rw [xblk_at, wblk_at]

/-- What the scratch holds after point n. -/
theorem scratch_eq (c : Dev nD) : ∀ (n : ℕ) (h : n < cfg0.N), (outsAt0 m c n h).2 = running m c n
  | 0, h => by
    rw [outsAt0_A m c ⟨0, h⟩ rfl (by show ¬(0 : ℕ) % 8 = 7; decide)]
    dsimp only
    exact (Pieces.scratch_first (F := Ideal) c _ _ _ _ _ _ _ _ _ _ _ _ _ (iblk m c 0 ⟨0, h⟩) (iblk m c 1 ⟨0, h⟩) (iblk m c 2 ⟨0, h⟩)).trans
      (update_first m c ⟨0, h⟩ rfl)
  | n + 1, h => by
    have hN : n + 1 < 128 := lt_of_lt_of_eq h (show cfg0.N = 128 from N_0)
    by_cases h0 : (n + 1) % 8 = 0
    · have h1 : ¬(n + 1) % 8 = 7 := by omega
      rw [outsAt0_A m c ⟨n + 1, h⟩ h0 h1]
      dsimp only
      exact (Pieces.scratch_first (F := Ideal) c _ _ _ _ _ _ _ _ _ _ _ _ _ (iblk m c 0 ⟨n + 1, h⟩) (iblk m c 1 ⟨n + 1, h⟩) (iblk m c 2 ⟨n + 1, h⟩)).trans
        (update_first m c ⟨n + 1, h⟩ h0)
    · by_cases h1 : (n + 1) % 8 = 7
      · rw [outsAt0_C m c ⟨n + 1, h⟩ h0 h1]
        dsimp only
        exact (Pieces.scratch_last (F := Ideal) c _ _ _ _ _ _ _ _ _ _ _ _ _ (iblk m c 0 ⟨n + 1, h⟩) (iblk m c 1 ⟨n + 1, h⟩) (iblk m c 2 ⟨n + 1, h⟩) _).trans
          (update_next m c ⟨n + 1, h⟩ h0 _ (scratch_eq c n (Nat.lt_of_succ_lt h)))
      · rw [outsAt0_B m c ⟨n + 1, h⟩ h0 h1]
        dsimp only
        exact (Pieces.scratch_middle (F := Ideal) c _ _ _ _ _ _ _ _ _ _ _ _ _ (iblk m c 0 ⟨n + 1, h⟩) (iblk m c 1 ⟨n + 1, h⟩) (iblk m c 2 ⟨n + 1, h⟩) _).trans
          (update_next m c ⟨n + 1, h⟩ h0 _ (scratch_eq c n (Nat.lt_of_succ_lt h)))

/-- What the output block receives at the last point of a run: the whole inner product plus the bias. -/
theorem out_eq (c : Dev nD) (t : Fin cfg0.N) (h0 : ¬t.val % 8 = 0) (h1 : t.val % 8 = 7) (p q : Fin 1024)
    (hb : 1024 * (t.val / 8 % 4) + q.val < 4096) :
    (outsAt0 m c t.val t.isLt).1 (ix2 p q)
      = partialDot (xarr m c) (warr m c) (1024 * (t.val / 32) + p.val) (1024 * (t.val / 8 % 4) + q.val) 4096
        + brow m c (ix2 (0 : Fin 1) ⟨1024 * (t.val / 8 % 4) + q.val, hb⟩) := by
  have hN := lt_N t
  have hpos : 0 < t.val := by omega
  rw [outsAt0_C m c t h0 h1]
  dsimp only
  refine (congrFun (Pieces.out_last (F := Ideal) c _ _ _ _ _ _ _ _ _ _ _ _ _ (iblk m c 0 t) (iblk m c 1 t) (iblk m c 2 t) _) (ix2 p q)).trans ?_
  refine (Payload.output_at _ (bblk m c t) p q).trans ?_
  rw [bblk_at m c t q hb]
  refine congrArg (· + _) ?_
  have hs : (outsAt0 m c (t.val - 1) (Nat.lt_of_le_of_lt (Nat.sub_le _ _) t.isLt)).2 = running m c (t.val - 1) :=
    scratch_eq m c (t.val - 1) _
  rw [update_next m c t h0 _ hs, running_at, h1]

end Cert.KernelIdeal.Running

end
-- ==== Proof.Output.lean ====
/-
  The result array after the run.

  Output block (i, j) is written back once, after the last point (k = 7) of its run of eight, and the sixteen blocks
  tile the [4096,4096] result. Entry (1024·i + p, 1024·j + q) therefore ends at the full inner product of row
  1024·i + p of x with row 1024·j + q of the weights, plus the bias of column 1024·j + q: one function of the arrays
  the region finds, the same at every index.
-/
import proofs.«401024_j88046829568546_1_alg».proof.Proof.Running

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.BlockSum Cert.KernelIdeal.Running

variable (m : (ℓ : Loc nD τ sig) → Buf (Elt Ideal) ℓ) (ρ : Dev nD → PrngReg)

/-- What the result array holds, from the arrays the region finds. -/
def found (c : Dev nD) : FVec Ideal S4096x4096 .f32 := fun i =>
  (∑ k : Fin 4096, xarr m c (ix2 (i 0) k) * warr m c (ix2 (i 1) k)) + brow m c (ix2 (0 : Fin 1) (i 1))

theorem found_at (c : Dev nD) (r s : Fin 4096) :
    found m c (ix2 r s) = (∑ k : Fin 4096, xarr m c (ix2 r k) * warr m c (ix2 s k)) + brow m c (ix2 (0 : Fin 1) s) := rfl

/-- The output window read at (p, q) of its block at point t, for any contents of the result array. -/
theorem read_o (A : FVec Ideal S4096x4096 .f32) (t : Fin cfg0.N) (p q : Fin 1024) (hb1 : 1024 * (t.val / 32) + p.val < 4096)
    (hb2 : 1024 * (t.val / 8 % 4) + q.val < 4096) :
    ((cfg0.win 3).blk t).view.read (Elt Ideal) A (ix2 p q) = A (ix2 ⟨1024 * (t.val / 32) + p.val, hb1⟩ ⟨1024 * (t.val / 8 % 4) + q.val, hb2⟩) := by
  rw [View.read_apply]
  show A _ = A _
  refine congrArg A (funext fun a => Fin.ext ?_)
  match a with
  | ⟨0, _⟩ => show win0_3.index t 0 * 1024 + 1 * p.val = 1024 * (t.val / 32) + p.val; rw [(idx_o t).1]; omega
  | ⟨1, _⟩ => show win0_3.index t 1 * 1024 + 1 * q.val = 1024 * (t.val / 8 % 4) + q.val; rw [(idx_o t).2]; omega

/-- What point t writes back (at k = 7) is block t of that function. -/
theorem flushed_eq (c : Dev nD) (t : Fin cfg0.N) (hf : (cfg0.win 3).flush t = true) :
    (dats m 0 c).flushed 3 t = ((cfg0.win 3).blk t).view.read (Elt Ideal) (found m c) := by
  have h1 : t.val % 8 = 7 := (flush0_3 t).mp hf
  have h0 : ¬t.val % 8 = 0 := by omega
  have hN := lt_N t
  rw [Value.flushed3]
  funext j
  obtain ⟨p, q, rfl⟩ : ∃ (p q : Fin 1024), j = ix2 p q := ⟨j 0, j 1, eq_ix2 j⟩
  have hp := p.isLt
  have hq := q.isLt
  have hb1 : 1024 * (t.val / 32) + p.val < 4096 := by omega
  have hb2 : 1024 * (t.val / 8 % 4) + q.val < 4096 := by omega
  rw [read_o (found m c) t p q hb1 hb2, found_at]
  show (outsAt0 m c t.val t.isLt).1 (ix2 p q) = _
  rw [out_eq m c t h0 h1 p q hb2]
  exact congrArg (· + _) (partialDot_full (xarr m c) (warr m c) ⟨_, hb1⟩ ⟨_, hb2⟩)

/-- An index lies in point t's output block iff each coordinate lies in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the result is in the block some k = 7 point writes back. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 128 := N_0
  have hlt : 32 * ((i 0).val / 1024) + 8 * ((i 1).val / 1024) + 7 < cfg0.N := by rw [hN]; omega
  have e0 : win0_3.index ⟨_, hlt⟩ (0 : Fin 2) = (32 * ((i 0).val / 1024) + 8 * ((i 1).val / 1024) + 7) / 32 := (idx_o ⟨_, hlt⟩).1
  have e1 : win0_3.index ⟨_, hlt⟩ (1 : Fin 2) = (32 * ((i 0).val / 1024) + 8 * ((i 1).val / 1024) + 7) / 8 % 4 := (idx_o ⟨_, hlt⟩).2
  refine ⟨⟨_, hlt⟩, (flush0_3 _).mpr (by show (32 * ((i 0).val / 1024) + 8 * ((i 1).val / 1024) + 7) % 8 = 7; omega), ?_⟩
  rw [mem_blk]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]; omega
  | ⟨1, _⟩ =>
    show win0_3.index ⟨_, hlt⟩ (1 : Fin 2) * 1024 ≤ (i 1).val ∧ (i 1).val < win0_3.index ⟨_, hlt⟩ (1 : Fin 2) * 1024 + 1024
    rw [e1]; omega

/-- The result array after the run. -/
theorem final (c : Dev nD) : (dats m 0 c).arrAt 3 cfg0.N = found m c :=
  (dats m 0 c).arrAt_eq_of_cover 3 (found m c) (flushed_eq m c) cover

end Cert.KernelIdeal.Output

end
-- ==== Proof.Domain.lean ====
/-
  The admitted inputs: every codebook index is a valid position of the 4096-entry table, counted from the
  front (0 … 4095) or, as array indexing allows, from the back (−4096 … −1).

  The precondition is a conjunction of `jnp.all` tests; its last two say, entry by entry, −4096 ≤ w and w < 4096
  (signed). Two consequences for one such word w are used later. The wrap of a negative index,
  w ↦ (w + 4096 if w < 0 else w), lands in 0 … 4095: for w ≥ 0 it is w itself, for w < 0 the sum cannot overflow
  32 bits. So the test 0 ≤ · ≤ 4095 that a fill-mode lookup applies to the wrapped index succeeds.
-/
import proofs.«401024_j88046829568546_1_alg».proof.Pre_finite_inputs
import Idealize.ShloMosaic.Lib.ReduceAll
import Idealize.ShloMosaic.Lib.Affine
import Idealize.ShloMosaic.Lib.ValueIdx

noncomputable section

open Idealize.ShloMosaic

namespace Cert.Domain

open Cert.Pre_finite_inputs

instance : Subsingleton S_.Idx := ⟨fun a b => funext fun d => d.elim0⟩

/-- Every entry of the index array lies in −4096 … 4095, read signed. -/
theorem index_range {F : FTy → Type} [FloatOps F] [Cert.Pre_finite_inputs.Facts] (a0 : FVec F S4096x4096 .f32)
    (a1 : FVec F S4096 .f32) (a2 : IVec S4096x4096 32) (a3 : FVec F S4096 .f32)
    (h : fn (F := F) a0 a1 a2 a3 = fun _ => 1#1) (i : S4096x4096.Idx) :
    -4096 ≤ (a2 i).toInt ∧ (a2 i).toInt < 4096 := by
  have h0 := congrFun h ValueIdx.ix0
  dsimp only [fn, fn_part1] at h0
  obtain ⟨h01, hlt⟩ := IntOp.andi_eq_one.mp h0
  obtain ⟨-, hge⟩ := IntOp.andi_eq_one.mp h01
  have e1 : IntOp.cmpi .sge (a2 i) 4294963200#32 = 1#1 := Host.reduce_andi_all _ _ _ _ _ hge i
  have e2 : IntOp.cmpi .slt (a2 i) 4096#32 = 1#1 := Host.reduce_andi_all _ _ _ _ _ hlt i
  have c1 : (4294963200#32 : BitVec 32).toInt = -4096 := by decide
  have c2 : (4096#32 : BitVec 32).toInt = 4096 := by decide
  have g1 := IntOp.cmpi_sge.mp e1
  have g2 := IntOp.cmpi_slt.mp e2
  rw [c1] at g1
  rw [c2] at g2
  exact ⟨g1, g2⟩

/-- The wrap of a negative index. -/
def wrap (x : BitVec 32) : BitVec 32 :=
  Scalar.select (IntOp.cmpi .slt x 0#32) (IntOp.addi x 4096#32) x

/-- An index in −4096 … 4095 wraps into 0 … 4095. -/
theorem wrap_range (x : BitVec 32) (h0 : -4096 ≤ x.toInt) (h1 : x.toInt < 4096) :
    0 ≤ (wrap x).toInt ∧ (wrap x).toInt ≤ 4095 := by
  have hz : (0#32 : BitVec 32).toInt = 0 := by decide
  unfold wrap Scalar.select
  by_cases hneg : IntOp.cmpi .slt x 0#32 = 1
  · rw [if_pos hneg]
    have hlt := IntOp.cmpi_slt.mp hneg
    rw [hz] at hlt
    have hx := BitVec.toInt_eq_toNat_cond x
    have hs := BitVec.toInt_eq_toNat_cond (x + 4096#32)
    have ha : (x + 4096#32).toNat = (x.toNat + 4096) % 4294967296 := by rw [BitVec.toNat_add]; rfl
    have hb := x.isLt
    show 0 ≤ (x + 4096#32).toInt ∧ (x + 4096#32).toInt ≤ 4095
    split_ifs at hx hs <;> omega
  · rw [if_neg hneg]
    have hge : ¬ x.toInt < 0 := fun hlt => hneg (IntOp.cmpi_slt.mpr (by rw [hz]; exact hlt))
    omega

/-- So the in-range test of a fill-mode lookup passes on the wrapped index. -/
theorem wrap_passes (x : BitVec 32) (h0 : -4096 ≤ x.toInt) (h1 : x.toInt < 4096) :
    IntOp.andi (IntOp.cmpi .sge (wrap x) 0#32) (IntOp.cmpi .sle (wrap x) 4095#32) = 1#1 := by
  have hz : (0#32 : BitVec 32).toInt = 0 := by decide
  have hm : (4095#32 : BitVec 32).toInt = 4095 := by decide
  obtain ⟨g0, g1⟩ := wrap_range x h0 h1
  rw [IntOp.andi_eq_one]
  exact ⟨IntOp.cmpi_sge.mpr (by rw [hz]; exact g0), IntOp.cmpi_sle.mpr (by rw [hm]; exact g1)⟩

end Cert.Domain

end
-- ==== Proof.LibAllOnes.lean ====
/-
  A general fact about jnp.all as it prints: a reduce by `and` of an array of bits, started from the bit one, is one
  as soon as every entry of the array is one. (The library has the converse: a result of one forces every entry.)
-/
import Idealize.ShloMosaic.Lib.ReduceAll

namespace Cert.LibAllOnes

open Idealize.ShloMosaic

/-- A left fold by `and` that starts at one and meets only ones ends at one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l (fun n hn => h n (List.mem_cons_of_mem _ hn))

/-- A reduce by `and`, from an initial bit one, of an array whose entries are all one is one at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ (fun n _ => hx n)

end Cert.LibAllOnes
-- ==== Proof.Weights.lean ====
/-
  The three arrays the matmul region finds, in terms of the program's arguments.

  Before the region the host code rounds x to bf16 (at exact arithmetic: x itself), reshapes the bias to one row,
  and builds the weight matrix by a fill-mode table lookup: each index w is wrapped (w + 4096 if w < 0), tested
  against 0 ≤ · ≤ 4095, and the table entry at the wrapped index is kept where the test passes, a fill value put
  where it fails. On admitted inputs every index lies in −4096 … 4095, so every test passes and the weight matrix
  is the plain lookup `values[wrapped index]`, entry by entry.
-/
import proofs.«401024_j88046829568546_1_alg».proof.Proof.Gen.KernelIdeal.Frame
import proofs.«401024_j88046829568546_1_alg».proof.Proof.Domain
import proofs.«401024_j88046829568546_1_alg».proof.Proof.LibAllOnes
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.StableHlo

namespace Cert.KernelIdeal.Weights

open Cert.KernelIdeal Cert.KernelIdeal.Gen

variable {F : FTy → Type} [FloatOps F]

/-- The wrapped indices, as a [4096,4096,1] array of start indices. -/
def wrapped (a2 : IVec S4096x4096 32) : IVec S4096x4096x1 32 :=
  broadcastInDim S4096x4096x1 ![0, 1] bcast_S4096x4096_S4096x4096x1_0_1
    (select (cmpi .slt a2 (broadcastInDim S4096x4096 ![] bcast_S_S4096x4096 (constantI S_ 32 0#32)))
      (addi a2 (broadcastInDim S4096x4096 ![] bcast_S_S4096x4096 (constantI S_ 32 4096#32))) a2)

/-- The in-range test of each wrapped index, before its `all` over the unit axis. -/
def tested (a2 : IVec S4096x4096 32) : IVec S4096x4096x1 1 :=
  andi (cmpi .sge (wrapped a2) (broadcastInDim S4096x4096x1 ![] bcast_S_S4096x4096x1 (constantI S_ 32 0#32)))
    (cmpi .sle (wrapped a2) (broadcastInDim S4096x4096x1 ![0, 1, 2] bcast_S1x1x1_S4096x4096x1_0_1_2
      (broadcastInDim S1x1x1 ![2] bcast_S1_S1x1x1_2 (constantI S1 32 4095#32))))

/-- The plain lookup. -/
def looked (a1 : FVec F S4096 .f32) (a2 : IVec S4096x4096 32) : FVec F S4096x4096 .f32 :=
  Host.gather gather_S4096_S4096x4096x1_S4096x4096_n_0_n_n_0_2_1 a1 (wrapped a2)

/-- The weight matrix the host code builds. -/
def filled (a1 : FVec F S4096 .f32) (a2 : IVec S4096x4096 32) : FVec F S4096x4096 .f32 :=
  select (Host.reduce IntOp.andi (tested a2) (constantI S_ 1 1#1) reducesTo_S4096x4096x1_S4096x4096_d2 h_S_)
    (looked a1 a2) (broadcastInDim S4096x4096 ![] bcast_S_S4096x4096 (constant S_ .f32 0x7FC00000#32))

variable (m : (ℓ : Loc nD τ sig) → Buf (Elt F) ℓ)

/-- Contents carried to a buffer's own type and back are the contents. -/
theorem there_and_back {T : BufTy} (x : TRef sig T) (v : T.Contents (Elt F)) : x.ofBuf (x.toBuf v) = v := by
  obtain ⟨r, h, hd, hu⟩ := x
  subst h
  rfl

theorem x_found (c : Dev nD) :
    (V m c main_v1 : FVec F S4096x4096 .bf16) = truncf .bf16 (m ((c : Thread nD τ).loc main_arg0)) bitsLt_bf16_f32 := by
  dsimp only [V]
  simp only [hostOps0, hostOps0_1, List.flatten_cons, List.flatten_nil, List.append_nil, List.cons_append, List.nil_append]
  after_results <;> rfl

theorem bias_found (c : Dev nD) :
    (V m c main_v3 : FVec F S1x4096 .f32) = shapeCast S1x4096 (m ((c : Thread nD τ).loc main_arg3)) shapeCasts_S4096_S1x4096 := by
  dsimp only [V]
  simp only [hostOps0, hostOps0_1, List.flatten_cons, List.flatten_nil, List.append_nil, List.cons_append, List.nil_append]
  after_results <;> rfl

set_option maxHeartbeats 4000000 in
theorem weights_found (c : Dev nD) :
    (V m c main_v2 : FVec F S4096x4096 .bf16)
      = truncf .bf16 (filled (m ((c : Thread nD τ).loc main_arg1)) (m ((c : Thread nD τ).loc main_arg2))) bitsLt_bf16_f32 := by
  unfold filled looked tested wrapped
  dsimp only [V]
  simp only [hostOps0, hostOps0_1, List.flatten_cons, List.flatten_nil, List.append_nil, List.cons_append, List.nil_append]
  after_results_simp
  simp only [there_and_back]
  have e1 : (TRef.of main_arg1 : TRef sig ⟨S4096, .f32⟩).ofBuf (m (c, Proc.devRef .tc main_arg1)) = m ((c : Thread nD τ).loc main_arg1) := rfl
  have e2 : (TRef.of main_arg2 : TRef sig ⟨S4096x4096, .i32⟩).ofBuf (m (c, Proc.devRef .tc main_arg2)) = m ((c : Thread nD τ).loc main_arg2) := rfl
  simp only [e1, e2]
  have key : ∀ X : (⟨S4096x4096, .f32⟩ : BufTy).Contents (Elt F),
      (TRef.of main_v0 : TRef sig ⟨S4096x4096, .f32⟩).toBuf (Val := Elt F) X = X := fun X => rfl
  exact congrArg (fun z => truncf .bf16 z bitsLt_bf16_f32) (key _)

/-- The wrapped index array at (s, k, 0) is the wrap of the index at (s, k). -/
theorem wrapped_at (a2 : IVec S4096x4096 32) (j : S4096x4096x1.Idx) :
    wrapped a2 j = Cert.Domain.wrap (a2 (ValueIdx.ix2 ⟨(j 0).val, (j 0).isLt⟩ ⟨(j 1).val, (j 1).isLt⟩)) := by
  unfold wrapped
  refine (broadcastInDim_apply _ bcast_S4096x4096_S4096x4096x1_0_1 _ j (ValueIdx.ix2 ⟨(j 0).val, (j 0).isLt⟩ ⟨(j 1).val, (j 1).isLt⟩) (fun a => ?_)).trans ?_
  · match a with
    | ⟨0, _⟩ => show (j 0).val = if (4096 : Nat) = 1 then 0 else (j 0).val; rw [if_neg (by decide)]
    | ⟨1, _⟩ => show (j 1).val = if (4096 : Nat) = 1 then 0 else (j 1).val; rw [if_neg (by decide)]
  · rfl

/-- On indices in −4096 … 4095 every test passes, -/
theorem tested_one (a2 : IVec S4096x4096 32) (hdom : ∀ i, -4096 ≤ (a2 i).toInt ∧ (a2 i).toInt < 4096) (j : S4096x4096x1.Idx) :
    tested a2 j = 1#1 := by
  show IntOp.andi (IntOp.cmpi .sge (wrapped a2 j) 0#32) (IntOp.cmpi .sle (wrapped a2 j) 4095#32) = 1#1
  rw [wrapped_at]
  exact Cert.Domain.wrap_passes _ (hdom _).1 (hdom _).2

/-- so the weight matrix is the plain lookup. -/
theorem filled_eq (a1 : FVec F S4096 .f32) (a2 : IVec S4096x4096 32)
    (hdom : ∀ i, -4096 ≤ (a2 i).toInt ∧ (a2 i).toInt < 4096) : filled a1 a2 = looked a1 a2 := by
  funext i
  unfold filled
  show Scalar.select (Host.reduce IntOp.andi (tested a2) (constantI S_ 1 1#1) reducesTo_S4096x4096x1_S4096x4096_d2 h_S_ i) _ _ = _
  rw [Cert.LibAllOnes.reduce_andi_of_all (tested a2) (constantI S_ 1 1#1) reducesTo_S4096x4096x1_S4096x4096_d2 h_S_ i rfl
    (tested_one a2 hdom)]
  exact ValueIdx.select_one _ _

end Cert.KernelIdeal.Weights

end
-- ==== Proof.KernelRun.lean ====
/-
  The kernel's result in terms of its arguments, on admitted inputs.

  The region finds x itself (the rounding to bf16 is exact here), the bias laid out as one row, and — since every
  index is a valid position of the table — the plain table lookup as its weight matrix. So the result array is
    result(i, j) = (∑ over the 4096 columns k of x(i,k) · values[wrap w(j,k)]) + bias(j).
-/
import proofs.«401024_j88046829568546_1_alg».proof.Proof.Output
import proofs.«401024_j88046829568546_1_alg».proof.Proof.Weights
import proofs.«401024_j88046829568546_1_alg».proof.Defs
import proofs.«401024_j88046829568546_1_alg».proof.Proof.Gen.Pre_finite_inputs

noncomputable section

open Idealize.ShloMosaic Idealize.ShloMosaic.TcCoe Idealize.SL.Sem Idealize.ShloMosaic.ValueIdx

namespace Cert.KernelIdeal.Dense

open Cert.KernelIdeal Cert.KernelIdeal.Gen Cert.KernelIdeal.Running Cert.KernelIdeal.Output

/-- The dense layer on looked-up weights, index by index. -/
def dense (a0 : FVec Ideal S4096x4096 .f32) (a1 : FVec Ideal S4096 .f32) (a2 : IVec S4096x4096 32)
    (a3 : FVec Ideal S4096 .f32) : FVec Ideal S4096x4096 .f32 := fun i =>
  (∑ k : Fin 4096, a0 (ix2 (i 0) k) * Weights.looked (F := Ideal) a1 a2 (ix2 (i 1) k)) + a3 (ix1 (i 1))

variable (m : (ℓ : Loc nD τ sig) → Buf (Elt Ideal) ℓ) (ρ : Dev nD → PrngReg)

/-- At exact arithmetic a rounding to bf16 changes nothing. -/
theorem round_id (X : FVec Ideal S4096x4096 .f32) : truncf .bf16 X bitsLt_bf16_f32 = X := funext fun _ => rfl

theorem x_is (c : Dev nD) : xarr m c = m ((c : Thread nD τ).loc main_arg0) := by
  unfold xarr
  exact (Weights.x_found m c).trans (round_id _)

theorem w_is (c : Dev nD)
    (hdom : ∀ i, -4096 ≤ (m ((c : Thread nD τ).loc main_arg2) i).toInt ∧ (m ((c : Thread nD τ).loc main_arg2) i).toInt < 4096) :
    warr m c = Weights.looked (F := Ideal) (m ((c : Thread nD τ).loc main_arg1)) (m ((c : Thread nD τ).loc main_arg2)) := by
  unfold warr
  exact (Weights.weights_found m c).trans
    ((congrArg (fun z => truncf .bf16 z bitsLt_bf16_f32) (Weights.filled_eq _ _ hdom)).trans (round_id _))

/-- The bias row at (0, s) is the bias at s. -/
theorem b_is (c : Dev nD) (s : Fin 4096) :
    brow m c (ix2 (0 : Fin 1) s) = m ((c : Thread nD τ).loc main_arg3) (ix1 s) := by
  unfold brow
  refine (congrFun (Weights.bias_found m c) (ix2 (0 : Fin 1) s)).trans ?_
  refine shapeCast_apply _ shapeCasts_S4096_S1x4096 (ix2 (0 : Fin 1) s) (ix1 s) ?_
  rw [Shape.rowMajor_val_one, Shape.rowMajor_val_two]
  show s.val = 0 * 4096 + s.val
  omega

/-- On admitted inputs the result array is the dense layer of the arguments. -/
theorem found_eq (c : Dev nD)
    (hdom : ∀ i, -4096 ≤ (m ((c : Thread nD τ).loc main_arg2) i).toInt ∧ (m ((c : Thread nD τ).loc main_arg2) i).toInt < 4096) :
    found m c = dense (m ((c : Thread nD τ).loc main_arg0)) (m ((c : Thread nD τ).loc main_arg1))
      (m ((c : Thread nD τ).loc main_arg2)) (m ((c : Thread nD τ).loc main_arg3)) := by
  funext i
  obtain ⟨r, s, rfl⟩ : ∃ (r s : Fin 4096), i = ix2 r s := ⟨i 0, i 1, eq_ix2 i⟩
  rw [found_at, x_is, w_is m c hdom, b_is]
  rfl

/-- The kernel's run: the result at the dense layer of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v4) = dense (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((Output.final m c).trans
      (found_eq m c (fun i => Cert.Domain.index_range (F := Ideal) _ _ _ _ (hpre c) i))), (h c).2⟩)
    (Cert.KernelIdeal.Value.run_blocks m ρ)

end Cert.KernelIdeal.Dense

end
-- ==== Proof.RefSpec.lean ====
/-
  The reference, entry by entry: result(i, j) = (∑ over the 4096 columns k of x(i,k) · weight(j,k)) + bias(j),
  where weight is the reference's own table lookup `values[wrapped index]`. The reference computes one whole
  contraction of x with the weight matrix along their second axes and adds the bias broadcast over the rows; read
  at an index this is the sum above.
-/
import proofs.«401024_j88046829568546_1_alg».proof.Proof.Gen.ReferenceIdeal.Read
import Idealize.ShloMosaic.Lib.ValueIdx

noncomputable section

open Idealize.ShloMosaic Idealize.ShloMosaic.TcCoe Idealize.SL.Sem Idealize.ShloMosaic.ValueIdx

namespace Cert.ReferenceIdeal.Spec

open Cert.ReferenceIdeal Cert.ReferenceIdeal.Gen Cert.ReferenceIdeal.Read

/-- The dense layer on looked-up weights, index by index. -/
def dense (a0 : FVec Ideal S4096x4096 .f32) (a1 : FVec Ideal S4096 .f32) (a2 : IVec S4096x4096 32)
    (a3 : FVec Ideal S4096 .f32) : FVec Ideal S4096x4096 .f32 := fun i =>
  (∑ k : Fin 4096, a0 (ix2 (i 0) k) * val_main_v6 (F := Ideal) a1 a2 (ix2 (i 1) k)) + a3 (ix1 (i 1))

theorem left_index (i : S4096x4096.Idx) (k : Fin 4096) : lidx_main_v7 i k = ix2 (i 0) k :=
  funext fun a => Fin.ext (by match a with | ⟨0, _⟩ => rfl | ⟨1, _⟩ => rfl)

theorem right_index (i : S4096x4096.Idx) (k : Fin 4096) : ridx_main_v7 i k = ix2 (i 1) k :=
  funext fun a => Fin.ext (by match a with | ⟨0, _⟩ => rfl | ⟨1, _⟩ => rfl)

theorem bias_index (i : S4096x4096.Idx) : idx_main_v8 (idx_main_v9 i) = ix1 (i 1) :=
  funext fun a => Fin.ext (by match a with | ⟨0, _⟩ => rfl)

/-- The reference's result is that function of its arguments. -/
theorem reference_eq (a0 : FVec Ideal S4096x4096 .f32) (a1 : FVec Ideal S4096 .f32) (a2 : IVec S4096x4096 32)
    (a3 : FVec Ideal S4096 .f32) : val_main_v10 (F := Ideal) a0 a1 a2 a3 = dense a0 a1 a2 a3 := by
  funext i
  rw [val_main_v10_apply, val_main_v7_apply, val_main_v9_apply, val_main_v8_apply, bias_index]
  simp only [left_index, right_index]
  rfl

end Cert.ReferenceIdeal.Spec

end
-- ==== Proof.lean ====
/-
  A dense layer on dequantized weights: out = x · Wᵀ + bias with W(j,k) = values[w_idx(j,k)].

  The kernel builds W on the host by a fill-mode table lookup and multiplies on the matrix unit, a [1024,1024]
  output block at a time, summing eight [1024,512]·[512,1024] products in a scratch block and adding the bias at the
  end; the reference looks the weights up by plain indexing and contracts x with W in one operation. The two lookups
  agree exactly where every index is a valid position of the 4096-entry table (−4096 … 4095, negative indices counting
  from the back); outside it the reference's indexing is out of range, and the statement's precondition keeps the
  inputs inside. There both programs compute, at every index (i, j),
      (∑ over the 4096 columns k of x(i,k) · values[wrap w_idx(j,k)]) + bias(j)
  over the extended reals: the rounding of the operands to bf16 is the identity at exact arithmetic, and a sum of
  extended reals may be taken in eight blocks of 512 columns because addition is commutative and associative.
-/
import proofs.«401024_j88046829568546_1_alg».proof.Defs
import proofs.«401024_j88046829568546_1_alg».proof.Proof.Gen.Kernel
import proofs.«401024_j88046829568546_1_alg».proof.Proof.Gen.Kernel.Skeleton
import proofs.«401024_j88046829568546_1_alg».proof.Proof.Gen.Kernel.Launch
import proofs.«401024_j88046829568546_1_alg».proof.Proof.Gen.Kernel.Points
import proofs.«401024_j88046829568546_1_alg».proof.Proof.Gen.Kernel.Frame
import proofs.«401024_j88046829568546_1_alg».proof.Proof.Gen.KernelIdeal
import proofs.«401024_j88046829568546_1_alg».proof.Proof.Gen.KernelIdeal.Skeleton
import proofs.«401024_j88046829568546_1_alg».proof.Proof.Gen.KernelIdeal.Launch
import proofs.«401024_j88046829568546_1_alg».proof.Proof.Gen.KernelIdeal.Points
import proofs.«401024_j88046829568546_1_alg».proof.Proof.Gen.KernelIdeal.Frame
import proofs.«401024_j88046829568546_1_alg».proof.Proof.Gen.ReferenceIdeal
import proofs.«401024_j88046829568546_1_alg».proof.Proof.Gen.Pre_finite_inputs
import proofs.«401024_j88046829568546_1_alg».proof.Proof.Gen.KernelIdeal.Value
import proofs.«401024_j88046829568546_1_alg».proof.Proof.Gen.ReferenceIdeal.Run
import proofs.«401024_j88046829568546_1_alg».proof.Proof.Gen.ReferenceIdeal.Read
import proofs.«401024_j88046829568546_1_alg».proof.Proof.KernelRun
import proofs.«401024_j88046829568546_1_alg».proof.Proof.RefSpec
import Idealize.ShloMosaic.Adequacy
import Idealize.ShloMosaic.Init

noncomputable section

namespace Cert.Proof

open Idealize.ShloMosaic Idealize.SL.Sem

/-- Both programs spell the weight lookup with the same operations, so the two index-by-index functions are one. -/
theorem dense_same (a0 : FVec Ideal Cert.KernelIdeal.S4096x4096 .f32) (a1 : FVec Ideal Cert.KernelIdeal.S4096 .f32)
    (a2 : IVec Cert.KernelIdeal.S4096x4096 32) (a3 : FVec Ideal Cert.KernelIdeal.S4096 .f32) :
    Cert.KernelIdeal.Dense.dense a0 a1 a2 a3 = Cert.ReferenceIdeal.Spec.dense a0 a1 a2 a3 := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both runs end with the result array at the dense layer of the
    arguments. -/
theorem algebraic : Cert.algebraic_KernelIdeal_ReferenceIdeal := by
  intro m ρ m' ρ' hpre hagree
  refine ⟨fun c => Cert.KernelIdeal.Dense.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Dense.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Spec.reference_eq, (hagree c).1, (hagree c).2.1,
    (hagree c).2.2.1, (hagree c).2.2.2]
  exact (dense_same _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
